-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.Scale.lean ====
/-
  The function both programs compute: a 16384 × 4096 matrix with every column scaled by that column's weight,
  entry (r, c) of the result being x r c · w c. It is stated twice: over the weight as a vector of 4096 entries
  (how the reference receives it) and over the weight as a 1 × 4096 matrix (how the kernel receives it, after the
  reshape that precedes the call). The two agree because a reshape keeps row-major positions, and entry (0, c) of
  the 1 × 4096 matrix sits at row-major position c, as entry c of the vector does. No law of the extended reals is
  used: both sides are the same product with the factors in the same order.
-/
import Idealize.ShloMosaic.PureOps.Ideal
import Idealize.ShloMosaic.Lib.ValueIdx
import Idealize.ShloMosaic.Lib.Pipeline.Value

noncomputable section

namespace Cert.Scale

open Idealize.ShloMosaic

variable {F : FTy → Type} [FloatOps F]

/-- The matrix's shape, the weight vector's, and the weight's as a one-row matrix. -/
abbrev Mat : Shape := ⟨2, ![16384, 4096]⟩
abbrev Wt : Shape := ⟨1, ![4096]⟩
abbrev WtRow : Shape := ⟨2, ![1, 4096]⟩

/-- The weight vector's index under matrix entry `i`: its column. -/
abbrev colOf (i : Mat.Idx) : Wt.Idx := fun a => match a with
  | ⟨0, _⟩ => ⟨(i 1).val, (i 1).isLt⟩

/-- The one-row weight matrix's index under matrix entry `i`: row 0, the same column. -/
abbrev rowOf (i : Mat.Idx) : WtRow.Idx := fun a => match a with
  | ⟨0, _⟩ => ⟨0, Nat.one_pos⟩
  | ⟨1, _⟩ => ⟨(i 1).val, (i 1).isLt⟩

/-- Every column of `x` scaled by its weight. -/
def scaled (x : Vec F Mat .f32) (w : Vec F Wt .f32) : Vec F Mat .f32 :=
  fun i => FloatOps.mulf (x i) (w (colOf i))

/-- The same over the weight laid out as one row. -/
def scaledRow (x : Vec F Mat .f32) (w : Vec F WtRow .f32) : Vec F Mat .f32 :=
  fun i => FloatOps.mulf (x i) (w (rowOf i))

/-- Reshaping the weight vector to one row changes nothing: entry (0, c) of the row is entry c of the vector,
    both at row-major position c. -/
theorem scaledRow_reshape (x : Vec F Mat .f32) (w : Vec F Wt .f32) (h : Wt.ShapeCasts WtRow) :
    scaledRow x (shapeCast WtRow w h) = scaled x w := by
  funext i
  show FloatOps.mulf (x i) (shapeCast WtRow w h (rowOf i)) = FloatOps.mulf (x i) (w (colOf i))
  refine congrArg (FloatOps.mulf (x i)) (shapeCast_apply w h (rowOf i) (colOf i) ?_)
  rw [Shape.rowMajor_val_one, Shape.rowMajor_val_two]
  show (i 1).val = 0 * 4096 + (i 1).val
  omega

end Cert.Scale

end
-- ==== Proof.RefScale.lean ====
/-
  The reference's result, read entry by entry: it broadcasts the weight vector to one row, that row to all 16384
  rows, and multiplies. Entry (r, c) of the doubly broadcast weight is entry c of the vector, so the product is
  the scaled matrix of Proof/Scale.lean.
-/
import proofs.«430870_j283467842321_3_alg».proof.Proof.Gen.ReferenceIdeal.Read
import proofs.«430870_j283467842321_3_alg».proof.Proof.Scale

noncomputable section

namespace Cert.ReferenceIdeal.Scaled

open Cert.ReferenceIdeal Cert.ReferenceIdeal.Gen Cert.ReferenceIdeal.Read Idealize.ShloMosaic

variable {F : FTy → Type} [FloatOps F]

/-- Through the two broadcasts, matrix entry `i` reads the weight vector at `i`'s column. -/
theorem weight_index (i : S16384x4096.Idx) : idx_main_v0 (idx_main_v1 i) = Cert.Scale.colOf i :=
  funext fun a => match a with | ⟨0, _⟩ => rfl

/-- The reference's product is the scaled matrix. -/
theorem result_eq (x : (⟨S16384x4096, .f32⟩ : BufTy).Contents (Elt F)) (w : (⟨S4096, .f32⟩ : BufTy).Contents (Elt F)) :
    val_main_v2 (F := F) x w = Cert.Scale.scaled x w := by
  funext i
  rw [val_main_v2_apply, val_main_v1_apply, val_main_v0_apply, weight_index]
  rfl

end Cert.ReferenceIdeal.Scaled

end
-- ==== Proof.KernelScale.lean ====
/-
  The kernel's result array. The grid has 32 points; point t stages rows 512·t … 512·t + 511 of x (all 4096
  columns) and the whole one-row weight, multiplies entry by entry with the weight row repeated down the block,
  and writes the product back to the same rows of the result. So what point t writes back is block t of the scaled
  matrix (Proof/Scale.lean, row form); the 32 blocks cover all 16384 rows (row r lies in block r / 512); hence the
  result array ends as the scaled matrix. The one-row weight is the reshape of the weight vector that the program
  performs before the call, which the row form absorbs.
-/
import proofs.«430870_j283467842321_3_alg».proof.Proof.Gen.KernelIdeal.Value
import proofs.«430870_j283467842321_3_alg».proof.Proof.Scale
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Scaled

open Cert.KernelIdeal Cert.KernelIdeal.Gen Cert.KernelIdeal.Value

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- One block of the product: entry (p, q) is the x block's entry (p, q) times the weight row's entry (0, q). -/
theorem block_apply (xb : Vec F S512x4096 .f32) (wb : Vec F S1x4096 .f32) (y : S512x4096.Idx) :
    out0_2 xb wb y = FloatOps.mulf (xb y) (wb (ix2_1 y)) := by
  unfold out0_2
  rw [canon2_eq]
  show FloatOps.mulf (View.ld xb r0_0 (ix2_0 y)) (View.ld wb r0_1 (ix2_1 y)) = _
  have lx : View.ld xb r0_0 = xb := View.ld_unit_zero (S := S512x4096) zero_offsets _ xb
  have lw : View.ld wb r0_1 = wb := View.ld_unit_zero (S := S1x4096) zero_offsets _ wb
  have e : ix2_0 y = y := funext fun a => match a with | ⟨0, _⟩ => rfl | ⟨1, _⟩ => rfl
  rw [lx, lw, e]

/-- Where the windows sit at point t: the x block and the result block at block row t, column block 0; the weight
    always at its one block. Decided over the 32 points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the scaled matrix of the arrays the region finds. -/
theorem flushed_eq (c : Dev nD) (t : Fin cfg0.N) :
    (dats m 0 c).flushed 2 t
      = ((cfg0.win 2).blk t).view.read (Elt F) (Cert.Scale.scaledRow (V m c main_arg0) (V m c main_v0)) := by
  rw [flushed2]
  obtain ⟨e0, e1, e2, e3, e4, e5⟩ := block_indices t
  funext j
  show out0_2 (iblk m c 0 t) (iblk m c 1 t) j = _
  refine (block_apply (iblk m c 0 t) (iblk m c 1 t) j).trans ?_
  show FloatOps.mulf (V m c main_arg0 (((cfg0.win 0).blk t).view.emb j)) (V m c main_v0 (((cfg0.win 1).blk t).view.emb (ix2_1 j)))
    = FloatOps.mulf (V m c main_arg0 (((cfg0.win 2).blk t).view.emb j)) (V m c main_v0 (Cert.Scale.rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2_1 j) = Cert.Scale.rowOf (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  rw [h0, h1]

/-- An entry of the result array lies in point t's block iff, on each axis, its coordinate is in the block's range. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Every entry of the result array is written back by some point: row r by point r / 512. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  let t : Fin cfg0.N := ⟨(i 0).val / 512, by rw [hN]; omega⟩
  obtain ⟨-, -, -, -, e4, e5⟩ := block_indices t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The one-row weight the region finds is the reshape of the weight vector as launched. -/
theorem weight_row (c : Dev nD) :
    (V m c main_v0 : S1x4096.Idx → Elt F .f32) = shapeCast S1x4096 (m ((c : Thread nD τ).loc main_arg1)) shapeCasts_S4096_S1x4096 := by
  dsimp only [V, hostOps0]
  after_results
  rfl

/-- The result array after the run is the scaled matrix of the arguments as launched. -/
theorem final (c : Dev nD) :
    (dats m 0 c).arrAt 2 cfg0.N = Cert.Scale.scaled (m ((c : Thread nD τ).loc main_arg0)) (m ((c : Thread nD τ).loc main_arg1)) := by
  rw [(dats m 0 c).arrAt_eq_of_cover 2 (Cert.Scale.scaledRow (V m c main_arg0) (V m c main_v0)) (fun t _ => flushed_eq m c t) covered,
    V_main_arg0, weight_row, Cert.Scale.scaledRow_reshape]

/-- Every weakly fair execution terminates with the result array at the scaled matrix and the arguments unchanged. -/
theorem run : θ_run defs (onTc (τ := τ) (main (F := F))) ⟨m, fun _ => 0, ρ⟩ fun r => ∀ c : Dev nD,
      r.2.mem ((c : Thread nD τ).loc main_v1) = Cert.Scale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scaled

end
-- ==== Proof.lean ====
/-
  Scaling the columns of a 16384 × 4096 matrix by a weight vector, computed by a kernel that walks the rows in 32
  blocks of 512 against the one-line product x · w with the weight broadcast over the rows.
  Over the extended reals both programs end with the same array, entry (r, c) being x r c · w c (Proof/Scale.lean):
  the kernel because each grid point writes back its block of that matrix and the blocks cover it
  (Proof/KernelScale.lean), the reference because its two broadcasts read the weight at the entry's column
  (Proof/RefScale.lean). The two products have their factors in the same order, so nothing about the inputs being
  finite is used. The kernel's idealization rewrote no operation, so it is the kernel's own text read over the
  extended reals. Each program runs to the end without a fault and leaves its arguments as they were: the kernels
  by the generated frames, the reference by its generated run.
-/
import proofs.«430870_j283467842321_3_alg».proof.Defs
import proofs.«430870_j283467842321_3_alg».proof.Proof.Gen.Kernel
import proofs.«430870_j283467842321_3_alg».proof.Proof.Gen.Kernel.Skeleton
import proofs.«430870_j283467842321_3_alg».proof.Proof.Gen.Kernel.Launch
import proofs.«430870_j283467842321_3_alg».proof.Proof.Gen.Kernel.Points
import proofs.«430870_j283467842321_3_alg».proof.Proof.Gen.Kernel.Frame
import proofs.«430870_j283467842321_3_alg».proof.Proof.Gen.KernelIdeal
import proofs.«430870_j283467842321_3_alg».proof.Proof.Gen.KernelIdeal.Skeleton
import proofs.«430870_j283467842321_3_alg».proof.Proof.Gen.KernelIdeal.Launch
import proofs.«430870_j283467842321_3_alg».proof.Proof.Gen.KernelIdeal.Points
import proofs.«430870_j283467842321_3_alg».proof.Proof.Gen.KernelIdeal.Frame
import proofs.«430870_j283467842321_3_alg».proof.Proof.Gen.ReferenceIdeal
import proofs.«430870_j283467842321_3_alg».proof.Proof.Gen.Pre_finite_inputs
import proofs.«430870_j283467842321_3_alg».proof.Proof.Gen.KernelIdeal.Value
import proofs.«430870_j283467842321_3_alg».proof.Proof.Gen.ReferenceIdeal.Run
import proofs.«430870_j283467842321_3_alg».proof.Proof.Gen.ReferenceIdeal.Read
import proofs.«430870_j283467842321_3_alg».proof.Proof.Scale
import proofs.«430870_j283467842321_3_alg».proof.Proof.RefScale
import proofs.«430870_j283467842321_3_alg».proof.Proof.KernelScale
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the scaled matrix of arguments that agree. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
